-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S8x2048x2048 : Shape := ⟨3, ![8, 2048, 2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8x512x2048 .f32) (main_arg1 : FVec F S8x2048x2048 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S8x512x2048 : Shape := ⟨3, ![8, 512, 2048]⟩
abbrev S8x2048x2048 : Shape := ⟨3, ![8, 2048, 2048]⟩
abbrev S1x512x2048 : Shape := ⟨3, ![1, 512, 2048]⟩
abbrev S1x2048x1024 : Shape := ⟨3, ![1, 2048, 1024]⟩
abbrev S1x512x1024 : Shape := ⟨3, ![1, 512, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x512x2048, .f32⟩
  | .hbm, ⟨1, _⟩ => ⟨S8x2048x2048, .f32⟩
  | .hbm, ⟨2, _⟩ => ⟨S8x512x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x512x1024, .f32⟩
  | .local _ .vmem, ⟨5, _⟩ => ⟨S1x512x1024, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x512x2048.size a
  hwx0_0 : ∀ i : grid0.Coords, EltTy.bits .f32 = 32 ∨ (Rect.block (s := S8x512x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x2048.size a
  hwx0_1 : ∀ i : grid0.Coords, EltTy.bits .f32 = 32 ∨ (Rect.block (s := S8x2048x2048) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x512x2048.size a
  hwx0_2 : ∀ i : grid0.Coords, EltTy.bits .f32 = 32 ∨ (Rect.block (s := S8x512x2048) S1x512x1024.size (cc0_transform_2 i) (hinb0_2 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x2048 : Shape := ⟨3, ![8, 512, 2048]⟩
abbrev S8x2048x2048 : Shape := ⟨3, ![8, 2048, 2048]⟩
abbrev S1x256x512 : Shape := ⟨3, ![1, 256, 512]⟩
abbrev S1x512x512 : Shape := ⟨3, ![1, 512, 512]⟩
abbrev S256x512 : Shape := ⟨2, ![256, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8x512x2048, .f32⟩
  | .hbm, ⟨1, _⟩ => ⟨S8x2048x2048, .f32⟩
  | .hbm, ⟨2, _⟩ => ⟨S8x512x2048, .f32⟩
  | .local _ .vmem, ⟨0, _⟩ => ⟨S1x256x512, .f32⟩
  | .local _ .vmem, ⟨1, _⟩ => ⟨S1x256x512, .f32⟩
  | .local _ .vmem, ⟨2, _⟩ => ⟨S1x512x512, .f32⟩
  | .local _ .vmem, ⟨3, _⟩ => ⟨S1x512x512, .f32⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 2, 4, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

class Facts₀ : Prop where
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S256x512_S1x256x512 : S256x512.ShapeCasts S1x256x512
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x512x2048.size a
  hwx0_0 : ∀ i : grid0.Coords, EltTy.bits .f32 = 32 ∨ (Rect.block (s := S8x512x2048) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x2048x2048.size a
  hwx0_1 : ∀ i : grid0.Coords, EltTy.bits .f32 = 32 ∨ (Rect.block (s := S8x2048x2048) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S8x512x2048.size a
  hwx0_2 : ∀ i : grid0.Coords, EltTy.bits .f32 = 32 ∨ (Rect.block (s := S8x512x2048) S1x256x512.size (cc0_transform_2 i) (hinb0_2 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Spec.lean ====
/-
  The batched matrix product of the experts, as one function of the two argument arrays, and its arithmetic.

  For expert e, token r and output column c the result is  ∑ h < 2048, x[e, r, h] · w[e, h, c]  on the extended
  reals. A tile of the product — a [1, A, K] block of x against a [1, K, B] block of w through the matrix unit
  into a zero accumulator — is, at entry (p, q), the sum over k < K of the blocks' entries. The contraction
  axis 2048 = 4 · 512 cut into four tiles gives the same sum, tile after tile onto zero: addition on the
  extended reals is commutative and associative, so the regrouping needs no finiteness.
-/
import Idealize.ShloMosaic.PureOps.Ideal.Laws
import Idealize.ShloMosaic.Lib.ValueIdx
import Idealize.ShloMosaic.Lib.ValueLayout
import Idealize.ShloMosaic.Lib.Pipeline.Value
import proofs.«108898_g2000205832369335_pallasbulk_950_2_alg».proof.Proof.LibTiles
import proofs.«108898_g2000205832369335_pallasbulk_950_2_alg».proof.Proof.LibContract

noncomputable section

namespace Cert.ExpertMM

open Idealize.ShloMosaic Idealize.ShloMosaic.ValueIdx

/-- The activations' shape: 8 experts, 512 tokens, 2048 hidden features. -/
abbrev SX : Shape := ⟨3, ![8, 512, 2048]⟩
/-- The weights' shape: 8 experts, 2048 hidden features, 2048 output features. -/
abbrev SW : Shape := ⟨3, ![8, 2048, 2048]⟩

/-- The per-expert product: entry (e, r, c) is the sum over the hidden feature h of x[e, r, h] · w[e, h, c]. -/
def G (x : FVec Ideal SX .f32) (w : FVec Ideal SW .f32) : FVec Ideal SX .f32 :=
  fun i => ∑ h : Fin 2048, x (ix3 (i 0) (i 1) h) * w (ix3 (i 0) h (i 2))

/-- Hidden feature k of tile s, among 4 tiles of 512, is a hidden feature. -/
theorem hid_lt (s : Fin 4) (k : Fin 512) : s.val * 512 + k.val < 2048 := Cert.LibTiles.tile_lt s k

/-- The product with the hidden axis cut into four tiles of 512, the tiles' sums added one after the other. -/
theorem G_tiles (x : FVec Ideal SX .f32) (w : FVec Ideal SW .f32) (i : SX.Idx) :
    G x w i = ∑ s : Fin 4, ∑ k : Fin 512,
      x (ix3 (i 0) (i 1) ⟨s.val * 512 + k.val, hid_lt s k⟩) * w (ix3 (i 0) ⟨s.val * 512 + k.val, hid_lt s k⟩ (i 2)) :=
  Cert.LibTiles.tile_sum 4 512 fun h => x (ix3 (i 0) (i 1) h) * w (ix3 (i 0) h (i 2))

/-- A tile of the product through the matrix unit: a [1, A, K] block against a [1, K, B] block, each with its
    unit axis dropped, into the zero accumulator, reads at entry (p, q) the sum over k of the blocks' entries. -/
theorem tile_apply (A K B : Nat) (x0 : FVec Ideal (⟨3, ![1, A, K]⟩ : Shape) .f32) (x1 : FVec Ideal (⟨3, ![1, K, B]⟩ : Shape) .f32)
    (h0 : (⟨3, ![1, A, K]⟩ : Shape).ShapeCasts ⟨2, ![A, K]⟩) (h1 : (⟨3, ![1, K, B]⟩ : Shape).ShapeCasts ⟨2, ![K, B]⟩)
    (p : Fin A) (q : Fin B) :
    matmul (DotDims.plain A K B) none (shapeCast (⟨2, ![A, K]⟩ : Shape) x0 h0) (shapeCast (⟨2, ![K, B]⟩ : Shape) x1 h1)
        (constant (F := Ideal) (⟨2, ![A, B]⟩ : Shape) .f32 0x00000000#32) (ix2 p q)
      = ∑ k : Fin K, x0 (ix3 (0 : Fin 1) p k) * x1 (ix3 (0 : Fin 1) k q) := by
  rw [Cert.LibDense.matmul_plain_zero_apply]
  refine Finset.sum_congr rfl fun k _ => ?_
  rw [shapeCast_1ab_ab_apply, shapeCast_1ab_ab_apply]

end Cert.ExpertMM

end
-- ==== Proof.KernelValue.lean ====
/-
  The kernel's result array as one function of its arguments.

  The kernel's grid is 8 experts × 2 column halves. At point (e, n) the body multiplies the whole [512, 2048]
  slab x[e] by the [2048, 1024] column half w[e][:, 1024 n : 1024 n + 1024] in one pass of the matrix unit
  into a zero accumulator and stores the [512, 1024] product as block (e, 0, n) of the result. Entry (p, q) of
  that block is  ∑ h < 2048, x[e, p, h] · w[e, h, 1024 n + q], which is entry (e, p, 1024 n + q) of the
  per-expert product; the sixteen blocks tile the result array.
-/
import proofs.«108898_g2000205832369335_pallasbulk_950_2_alg».proof.Proof.Gen.KernelIdeal.Value
import proofs.«108898_g2000205832369335_pallasbulk_950_2_alg».proof.Proof.Spec

noncomputable section

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offset of a block read whole. -/
theorem off_zero : (![0, 0, 0] : Fin 3 → Nat) = fun _ => 0 := funext fun a => by fin_cases a <;> rfl

/-- The body's payload at entry (p, q) of its [1, 512, 1024] result: the sum over the 2048 hidden features of
    the x block's row p against the w block's column q. -/
theorem pay_apply (x0 : Vec Ideal S1x512x2048 .f32) (x1 : Vec Ideal S1x2048x1024 .f32) (u : Fin 1) (p : Fin 512) (q : Fin 1024) :
    k0_pay1 (F := Ideal) x0 x1 (ix3 u p q) = ∑ k : Fin 2048, x0 (ix3 (0 : Fin 1) p k) * x1 (ix3 (0 : Fin 1) k q) := by
  unfold k0_pay1
  refine (shapeCast_ab_1ab_apply _ _ u p q).trans ?_
  exact Cert.ExpertMM.tile_apply 512 2048 1024 x0 x1 _ _ p q

/-- The printed index maps over the 16 grid points: x's block follows the result's expert and is the whole slab;
    w's block follows the result's expert and column half; the result's block index is (expert, 0, half). -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0
    ∧ win0_1.index t (2 : Fin 3) = win0_2.index t (2 : Fin 3)
    ∧ win0_2.index t (0 : Fin 3) ≤ 7 ∧ win0_2.index t (1 : Fin 3) = 0 ∧ win0_2.index t (2 : Fin 3) ≤ 1 :=
  (by decide +kernel : ∀ t : Fin grid0.N, _)

/-- Every (expert, column half) is some point's block. -/
theorem idx_onto : ∀ (e : Fin 8) (n : Fin 2), ∃ t : Fin cfg0.N, win0_2.index t = ![e.val, 0, n.val] :=
  (by decide +kernel : ∀ (e : Fin 8) (n : Fin 2), ∃ t : Fin grid0.N, win0_2.index t = ![e.val, 0, n.val])

/-- Every point writes its block back. -/
theorem flush_all : ∀ t : Fin cfg0.N, (cfg0.win 2).flush t = true :=
  (by decide +kernel : ∀ t : Fin grid0.N, win0_2.flush t = true)

/-- x's block at a point is the expert's whole slab: entry (u, p, k) is x[e, p, k]. -/
theorem xblk_apply (c : Dev nD) (t : Fin cfg0.N) (y : S1x512x2048.Idx) (i : S8x512x2048.Idx)
    (h0 : (i 0).val = win0_2.index t (0 : Fin 3)) (h1 : (i 1).val = (y 1).val) (h2 : (i 2).val = (y 2).val) :
    (iblk m c 0 t : Vec Ideal S1x512x2048 .f32) y = m ((c : Thread nD τ).loc main_arg0) i := by
  obtain ⟨e0, e1, e2, -⟩ := idx_facts t
  have hy : (y 0).val < 1 := (y 0).isLt
  show V m c main_arg0 (((cfg0.win 0).blk t).view.emb y) = V m c main_arg0 i
  congr 1
  funext a
  apply Fin.ext
  match a with
  | ⟨0, _⟩ => show win0_0.index t (0 : Fin 3) * 1 + 1 * (y 0).val = (i 0).val; omega
  | ⟨1, _⟩ => show win0_0.index t (1 : Fin 3) * 512 + 1 * (y 1).val = (i 1).val; omega
  | ⟨2, _⟩ => show win0_0.index t (2 : Fin 3) * 2048 + 1 * (y 2).val = (i 2).val; omega

/-- w's block at a point is the expert's column half: entry (u, k, q) is w[e, k, 1024 n + q]. -/
theorem wblk_apply (c : Dev nD) (t : Fin cfg0.N) (y : S1x2048x1024.Idx) (i : S8x2048x2048.Idx)
    (h0 : (i 0).val = win0_2.index t (0 : Fin 3)) (h1 : (i 1).val = (y 1).val)
    (h2 : (i 2).val = win0_2.index t (2 : Fin 3) * 1024 + (y 2).val) :
    (iblk m c 1 t : Vec Ideal S1x2048x1024 .f32) y = m ((c : Thread nD τ).loc main_arg1) i := by
  obtain ⟨-, -, -, e3, e4, e5, -⟩ := idx_facts t
  have hy : (y 0).val < 1 := (y 0).isLt
  show V m c main_arg1 (((cfg0.win 1).blk t).view.emb y) = V m c main_arg1 i
  congr 1
  funext a
  apply Fin.ext
  match a with
  | ⟨0, _⟩ => show win0_1.index t (0 : Fin 3) * 1 + 1 * (y 0).val = (i 0).val; omega
  | ⟨1, _⟩ => show win0_1.index t (1 : Fin 3) * 2048 + 1 * (y 1).val = (i 1).val; omega
  | ⟨2, _⟩ => show win0_1.index t (2 : Fin 3) * 1024 + 1 * (y 2).val = (i 2).val; omega

/-- The result array the kernel ends with: the per-expert product of its two arguments. -/
abbrev result (c : Dev nD) : Buf (Elt Ideal) ((c : Thread nD τ).loc main_v0) :=
  Cert.ExpertMM.G (m ((c : Thread nD τ).loc main_arg0)) (m ((c : Thread nD τ).loc main_arg1))

/-- The payload of the blocks at a point, at entry y of the block, is the product at the array index i that the
    result's block places y at. -/
theorem pay_result (c : Dev nD) (t : Fin cfg0.N) (y : S1x512x1024.Idx) (i : S8x512x2048.Idx)
    (h0 : (i 0).val = win0_2.index t (0 : Fin 3)) (h1 : (i 1).val = (y 1).val)
    (h2 : (i 2).val = win0_2.index t (2 : Fin 3) * 1024 + (y 2).val) :
    k0_pay1 (F := Ideal) (iblk m c 0 t) (iblk m c 1 t) y = result m c i := by
  rw [eq_ix3 y]
  refine (pay_apply _ _ (y 0) (y 1) (y 2)).trans ?_
  unfold result Cert.ExpertMM.G
  refine Finset.sum_congr rfl fun k _ => ?_
  rw [xblk_apply m c t (ix3 (0 : Fin 1) (y 1) k) (ix3 (i 0) (i 1) k) h0 h1 rfl,
    wblk_apply m c t (ix3 (0 : Fin 1) k (y 2)) (ix3 (i 0) k (i 2)) h0 rfl h2]

/-- What a point writes back is its block of the product. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero off_zero]
  simp only [View.ld_unit_zero (S := S1x512x2048) off_zero, View.ld_unit_zero (S := S1x2048x1024) off_zero]
  obtain ⟨-, -, -, -, -, -, b0, b1, b2⟩ := idx_facts t
  funext j
  show k0_pay1 (F := Ideal) (iblk m c 0 t) (iblk m c 1 t) j = result m c (((cfg0.win 2).blk t).view.emb j)
  have hj : (j 0).val < 1 := (j 0).isLt
  refine pay_result m c t j _ ?_ ?_ ?_
  · show win0_2.index t (0 : Fin 3) * 1 + 1 * (j 0).val = _; omega
  · show win0_2.index t (1 : Fin 3) * 512 + 1 * (j 1).val = _; omega
  · show win0_2.index t (2 : Fin 3) * 1024 + 1 * (j 2).val = _; omega

/-- An index of the result is in a point's block iff each coordinate is in the block's range on its axis. -/
theorem mem_blk (t : Fin cfg0.N) (i : S8x512x2048.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v0).slice (win0_2.rect t)).set ↔ _
  rw [View.set_slice_whole, Rect.mem_set_unit]
  exact Iff.rfl

/-- The sixteen blocks cover the result: index (e, r, col) lies in the block of expert e and half col / 1024. -/
theorem cover (i : S8x512x2048.Idx) : ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 2048 := (i 2).isLt
  obtain ⟨t, ht⟩ := idx_onto ⟨(i 0).val, hi0⟩ ⟨(i 2).val / 1024, by omega⟩
  have q0 : win0_2.index t (0 : Fin 3) = (i 0).val := congrFun ht 0
  have q1 : win0_2.index t (1 : Fin 3) = 0 := congrFun ht 1
  have q2 : win0_2.index t (2 : Fin 3) = (i 2).val / 1024 := congrFun ht 2
  refine ⟨t, flush_all t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- After the run the result array is the per-expert product. -/
theorem final (c : Dev nD) : (dats m 0 c).arrAt 2 cfg0.N = result m c :=
  (dats m 0 c).arrAt_eq_of_cover 2 (result m c) (fun t _ => flushed_eq m c t) cover

/-- The kernel's run: it terminates with the result array at the product and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Product

end
-- ==== Proof.RefPieces.lean ====
/-
  What each control case of the reference's body leaves behind, as plain terms of what it read.

  The body keeps a [256, 512] accumulator across the four steps of a run along the hidden axis. At the first step
  it zeroes the accumulator and then adds the step's tile product to it; at every later step it adds the step's
  tile product to what the step before left; at the last step it also copies the accumulator into the result's
  block. Each lemma below reads one case's stores back: every store is of a whole buffer, so the last store's
  payload is what the buffer holds, and a load of a buffer after one whole store reads that store's payload.
-/
import proofs.«108898_g2000205832369335_pallasbulk_950_2_alg».proof.Proof.Gen.ReferenceIdeal.Frame
import Idealize.ShloMosaic.Lib.Pipeline.Value
import Idealize.ShloMosaic.Lib.Tactic

noncomputable section

namespace Cert.ReferenceIdeal.Pieces

open Cert.ReferenceIdeal Cert.ReferenceIdeal.Gen Idealize.ShloMosaic Idealize.ShloMosaic.TcCoe Idealize.ShloMosaic.Tactic Idealize.SL.Sem

variable {F : FTy → Type} [FloatOps F]

/-- The zero offset of a rank-2 buffer accessed whole. -/
theorem off2 : (![0, 0] : Fin 2 → Nat) = fun _ => 0 := funext fun a => by fin_cases a <;> rfl
/-- The zero offset of a rank-3 buffer accessed whole. -/
theorem off3 : (![0, 0, 0] : Fin 3 → Nat) = fun _ => 0 := funext fun a => by fin_cases a <;> rfl

/-- First step of a run: the accumulator ends at the zero splat plus the step's tile product. -/
theorem sout_A (c : Dev nD) (i : grid0.Coords) (arg4 : Memref sig .tc .vmem S1x256x512 .f32) (harg4 : arg4.IsWhole) (arg5 : Memref sig .tc .vmem S1x512x512 .f32) (harg5 : arg5.IsWhole) (arg6 : Memref sig .tc .vmem S1x256x512 .f32) (harg6 : arg6.IsWhole) (arg7 : Memref sig .tc .vmem S256x512 .f32) (harg7 : arg7.IsWhole) (hc0 : cond0_0 i) (hc1 : ¬cond0_1 i)
    (x0 : Vec F S1x256x512 .f32) (x1 : Vec F S1x512x512 .f32) :
    sout0_A_0 c i arg4 harg4 arg5 harg5 arg6 harg6 arg7 harg7 hc0 hc1 x0 x1 = k0_pay2 (k0_pay1 (F := F)) x0 x1 := by
  unfold sout0_A_0
  rw [View.read_writes_eq_canon _ _ _ (scover0_A_0 c i arg4 harg4 arg5 harg5 arg6 harg6 arg7 harg7 hc0 hc1 x0 x1)]
  unfold kernelRun0_A
  dsimp only
  sl_unfold_words
  rw [View.canon_cons_unit_zero (S := S256x512) off2, View.readCov_unit_zero (S := S256x512) _ off2]
  simp only [View.readAt_eq_ld, harg4.read_unread, harg5.read_unread, View.ld_unit_zero (S := S1x256x512) off3, View.ld_unit_zero (S := S1x512x512) off3]

/-- A middle step: the accumulator ends at what the step before left plus the step's tile product. -/
theorem sout_B (c : Dev nD) (i : grid0.Coords) (arg4 : Memref sig .tc .vmem S1x256x512 .f32) (harg4 : arg4.IsWhole) (arg5 : Memref sig .tc .vmem S1x512x512 .f32) (harg5 : arg5.IsWhole) (arg6 : Memref sig .tc .vmem S1x256x512 .f32) (harg6 : arg6.IsWhole) (arg7 : Memref sig .tc .vmem S256x512 .f32) (harg7 : arg7.IsWhole) (hc0 : ¬cond0_0 i) (hc1 : ¬cond0_1 i)
    (x0 : Vec F S1x256x512 .f32) (x1 : Vec F S1x512x512 .f32) (xs0 : Vec F S256x512 .f32) :
    sout0_B_0 c i arg4 harg4 arg5 harg5 arg6 harg6 arg7 harg7 hc0 hc1 x0 x1 xs0 = k0_pay2 xs0 x0 x1 := by
  unfold sout0_B_0
  rw [View.read_writes_eq_canon _ _ _ (scover0_B_0 c i arg4 harg4 arg5 harg5 arg6 harg6 arg7 harg7 hc0 hc1 x0 x1 xs0)]
  unfold kernelRun0_B
  dsimp only
  sl_unfold_words
  rw [View.canon_unit_zero (S := S256x512) off2]
  simp only [View.readAt_eq_ld, harg4.read_unread, harg5.read_unread, harg7.read_unread, View.ld_unit_zero (S := S1x256x512) off3, View.ld_unit_zero (S := S1x512x512) off3, View.ld_unit_zero (S := S256x512) off2]

/-- The last step: the accumulator likewise, -/
theorem sout_C (c : Dev nD) (i : grid0.Coords) (arg4 : Memref sig .tc .vmem S1x256x512 .f32) (harg4 : arg4.IsWhole) (arg5 : Memref sig .tc .vmem S1x512x512 .f32) (harg5 : arg5.IsWhole) (arg6 : Memref sig .tc .vmem S1x256x512 .f32) (harg6 : arg6.IsWhole) (arg7 : Memref sig .tc .vmem S256x512 .f32) (harg7 : arg7.IsWhole) (hc0 : ¬cond0_0 i) (hc1 : cond0_1 i)
    (x0 : Vec F S1x256x512 .f32) (x1 : Vec F S1x512x512 .f32) (xs0 : Vec F S256x512 .f32) :
    sout0_C_0 c i arg4 harg4 arg5 harg5 arg6 harg6 arg7 harg7 hc0 hc1 x0 x1 xs0 = k0_pay2 xs0 x0 x1 := by
  unfold sout0_C_0
  rw [View.read_writes_eq_canon _ _ _ (scover0_C_0 c i arg4 harg4 arg5 harg5 arg6 harg6 arg7 harg7 hc0 hc1 x0 x1 xs0)]
  unfold kernelRun0_C
  dsimp only
  sl_unfold_words
  rw [View.canon_unit_zero (S := S256x512) off2]
  simp only [View.readAt_eq_ld, harg4.read_unread, harg5.read_unread, harg7.read_unread, View.ld_unit_zero (S := S1x256x512) off3, View.ld_unit_zero (S := S1x512x512) off3, View.ld_unit_zero (S := S256x512) off2]

/-- and the result's block is the accumulator just stored, with a unit axis in front. -/
theorem out_C (c : Dev nD) (i : grid0.Coords) (arg4 : Memref sig .tc .vmem S1x256x512 .f32) (harg4 : arg4.IsWhole) (arg5 : Memref sig .tc .vmem S1x512x512 .f32) (harg5 : arg5.IsWhole) (arg6 : Memref sig .tc .vmem S1x256x512 .f32) (harg6 : arg6.IsWhole) (arg7 : Memref sig .tc .vmem S256x512 .f32) (harg7 : arg7.IsWhole) (hc0 : ¬cond0_0 i) (hc1 : cond0_1 i)
    (x0 : Vec F S1x256x512 .f32) (x1 : Vec F S1x512x512 .f32) (xs0 : Vec F S256x512 .f32) :
    out0_C_2 c i arg4 harg4 arg5 harg5 arg6 harg6 arg7 harg7 hc0 hc1 x0 x1 xs0 = k0_pay3 (k0_pay2 xs0 x0 x1) := by
  unfold out0_C_2
  rw [View.read_writes_eq_canon _ _ _ (cover0_C_2 c i arg4 harg4 arg5 harg5 arg6 harg6 arg7 harg7 hc0 hc1 x0 x1 xs0)]
  unfold kernelRun0_C
  dsimp only
  sl_unfold_words
  rw [View.canon_unit_zero (S := S1x256x512) off3, View.readCov_unit_zero (S := S256x512) _ off2]
  simp only [View.readAt_eq_ld, harg4.read_unread, harg5.read_unread, harg7.read_unread, View.ld_unit_zero (S := S1x256x512) off3, View.ld_unit_zero (S := S1x512x512) off3, View.ld_unit_zero (S := S256x512) off2]

end Cert.ReferenceIdeal.Pieces

end
-- ==== Proof.RefValue.lean ====
/-
  The reference's result array as one function of its arguments.

  The reference's grid is 8 experts × 2 row halves × 4 column quarters × 4 steps along the hidden axis, the
  step innermost: point t is (t / 32, t / 16 % 2, t / 4 % 4, t % 4). A run of four consecutive points shares
  its result block (e, r, n) and walks the hidden axis in tiles of 512. Step s multiplies the [256, 512] tile
  x[e, 256 r .., 512 s ..] by the [512, 512] tile w[e, 512 s .., 512 n ..] and adds the product to the
  accumulator (zeroed at step 0); step 3 copies the accumulator out. So the block written back at the run's
  last point holds, at entry (p, q),  0 + ∑ s < 4, ∑ k < 512, x[e, 256 r + p, 512 s + k] · w[e, 512 s + k, 512 n + q],
  which is the per-expert product with its hidden axis cut into four tiles; the 64 blocks tile the result.
-/
import proofs.«108898_g2000205832369335_pallasbulk_950_2_alg».proof.Proof.Gen.ReferenceIdeal.Value
import proofs.«108898_g2000205832369335_pallasbulk_950_2_alg».proof.Proof.Spec
import proofs.«108898_g2000205832369335_pallasbulk_950_2_alg».proof.Proof.RefPieces

noncomputable section

namespace Cert.ReferenceIdeal.Product

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The body's three payloads at an entry -/

/-- The accumulator's reset value is zero everywhere. -/
theorem zero_apply (i : S256x512.Idx) : k0_pay1 (F := Ideal) i = 0 := by
  unfold k0_pay1
  simp only [shapeCast_self]
  exact Ideal.ofBits_zero_f32

/-- A step adds, at entry (p, q), the sum over the tile's 512 hidden features of the x tile's row p against the
    w tile's column q. -/
theorem step_apply (acc : FVec Ideal S256x512 .f32) (x0 : FVec Ideal S1x256x512 .f32) (x1 : FVec Ideal S1x512x512 .f32)
    (p : Fin 256) (q : Fin 512) :
    k0_pay2 (F := Ideal) acc x0 x1 (ix2 p q)
      = acc (ix2 p q) + ∑ k : Fin 512, x0 (ix3 (0 : Fin 1) p k) * x1 (ix3 (0 : Fin 1) k q) := by
  unfold k0_pay2
  simp only [shapeCast_self]
  refine (addf_apply _ _ _).trans ?_
  congr 1
  exact Cert.ExpertMM.tile_apply 256 512 512 x0 x1 _ _ p q

/-- The copy-out puts a unit axis in front of the accumulator. -/
theorem copy_apply (v : FVec Ideal S256x512 .f32) (u : Fin 1) (p : Fin 256) (q : Fin 512) :
    k0_pay3 (F := Ideal) v (ix3 u p q) = v (ix2 p q) := by
  unfold k0_pay3
  exact shapeCast_ab_1ab_apply _ _ u p q

/-! ## The accumulator after each point, as a sum of tile products -/

/-- The x tile a point stages. -/
abbrev xblk (c : Dev nD) (t : Fin cfg0.N) : FVec Ideal S1x256x512 .f32 := iblk m c 0 t
/-- The w tile a point stages. -/
abbrev wblk (c : Dev nD) (t : Fin cfg0.N) : FVec Ideal S1x512x512 .f32 := iblk m c 1 t

/-- The product of the two tiles point n stages, entry by entry (zero past the grid, where it is never used). -/
def tileProd (c : Dev nD) (n : ℕ) : S256x512.Idx → EReal := fun i =>
  if h : n < cfg0.N then
    ∑ k : Fin 512, xblk m c ⟨n, h⟩ (ix3 (0 : Fin 1) (i 0) k) * wblk m c ⟨n, h⟩ (ix3 (0 : Fin 1) k (i 1))
  else 0

theorem tileProd_apply (c : Dev nD) (n : ℕ) (hb : n < cfg0.N) (p : Fin 256) (q : Fin 512) :
    tileProd m c n (ix2 p q)
      = ∑ k : Fin 512, xblk m c ⟨n, hb⟩ (ix3 (0 : Fin 1) p k) * wblk m c ⟨n, hb⟩ (ix3 (0 : Fin 1) k q) := by
  unfold tileProd
  rw [dif_pos hb]

/-- At the first point of a run the accumulator ends at zero plus the point's tile product, whatever it held. -/
theorem sc_reset (c : Dev nD) (n : ℕ) (hb : n < cfg0.N) (h0 : n % 4 = 0) (acc : Vec Ideal S256x512 .f32)
    (i : S256x512.Idx) : Value.scAt0_0 m c n hb acc i = 0 + tileProd m c n i := by
  have h1 : ¬n % 4 = 3 := by omega
  obtain ⟨p, q, rfl⟩ : ∃ (p : Fin 256) (q : Fin 512), i = ix2 p q := ⟨i 0, i 1, eq_ix2 i⟩
  unfold Value.scAt0_0
  rw [dif_pos h0, dif_neg h1]
  refine (congrFun (Pieces.sout_A c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) ((hcond0_0 ⟨n, hb⟩).mpr h0) (fun h => h1 ((hcond0_1 ⟨n, hb⟩).mp h)) (iblk m c 0 ⟨n, hb⟩) (iblk m c 1 ⟨n, hb⟩)) (ix2 p q)).trans ?_
  refine (step_apply (k0_pay1 (F := Ideal)) (iblk m c 0 ⟨n, hb⟩) (iblk m c 1 ⟨n, hb⟩) p q).trans ?_
  rw [zero_apply, tileProd_apply m c n hb]

/-- At every later point of a run it ends at what the point before left plus the point's tile product. -/
theorem sc_step (c : Dev nD) (n : ℕ) (hb : n < cfg0.N) (h0 : ¬n % 4 = 0) (acc : Vec Ideal S256x512 .f32)
    (i : S256x512.Idx) : Value.scAt0_0 m c n hb acc i = acc i + tileProd m c n i := by
  obtain ⟨p, q, rfl⟩ : ∃ (p : Fin 256) (q : Fin 512), i = ix2 p q := ⟨i 0, i 1, eq_ix2 i⟩
  unfold Value.scAt0_0
  rw [dif_neg h0]
  by_cases h1 : n % 4 = 3
  · rw [dif_pos h1]
    refine (congrFun (Pieces.sout_C c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) (fun h => h0 ((hcond0_0 ⟨n, hb⟩).mp h)) ((hcond0_1 ⟨n, hb⟩).mpr h1) (iblk m c 0 ⟨n, hb⟩) (iblk m c 1 ⟨n, hb⟩) acc) (ix2 p q)).trans ?_
    refine (step_apply acc (iblk m c 0 ⟨n, hb⟩) (iblk m c 1 ⟨n, hb⟩) p q).trans ?_
    rw [tileProd_apply m c n hb]
  · rw [dif_neg h1]
    refine (congrFun (Pieces.sout_B c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) (fun h => h0 ((hcond0_0 ⟨n, hb⟩).mp h)) (fun h => h1 ((hcond0_1 ⟨n, hb⟩).mp h)) (iblk m c 0 ⟨n, hb⟩) (iblk m c 1 ⟨n, hb⟩) acc) (ix2 p q)).trans ?_
    refine (step_apply acc (iblk m c 0 ⟨n, hb⟩) (iblk m c 1 ⟨n, hb⟩) p q).trans ?_
    rw [tileProd_apply m c n hb]

/-- After the last point of a run the accumulator holds zero plus the four tile products of the run's points. -/
theorem acc_last (c : Dev nD) (t : Fin cfg0.N) (h3 : t.val % 4 = 3) (i : S256x512.Idx) :
    (outsAt0 m c t.val t.isLt).2 i = 0 + ∑ s ∈ Finset.range 4, tileProd m c (4 * (t.val / 4) + s) i := by
  rw [Value.soutsAt0_0_eq m c t]
  have key := Pipeline.accAt_add_apply (ι := S256x512.Idx) (β := EReal) (N := cfg0.N)
    (fun n h => Value.scAt0_0 m c n h (VS0_0.read (Elt Ideal) VS0_0.junk)) (Value.scAt0_0 m c)
    (fun _ => 0) (tileProd m c) (4 * (t.val / 4)) 3
    (fun h i => sc_reset m c _ h (Nat.mul_mod_right 4 _) _ i)
    (fun n h acc i hlt hle => sc_step m c n h (by omega) acc i)
    (t.val % 4) (by omega) (by have := t.isLt; omega) i
  refine key.trans ?_
  rw [h3]

/-- At a run's last point the result's staging buffer is the accumulator with a unit axis in front. -/
theorem out_last (c : Dev nD) (t : Fin cfg0.N) (h3 : t.val % 4 = 3) :
    (outsAt0 m c t.val t.isLt).1 = k0_pay3 (F := Ideal) (outsAt0 m c t.val t.isLt).2 := by
  have h0 : ¬t.val % 4 = 0 := by omega
  rw [outsAt0_C m c t h0 h3]
  dsimp only
  exact (Pieces.out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2).trans
    (congrArg (k0_pay3 (F := Ideal)) (Pieces.sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2).symm)

/-! ## The tiles as parts of the argument arrays -/

/-- The printed index maps over the 256 grid points, in closed form: the x tile is (expert, row half, step), the
    w tile (expert, step, column quarter), the result block (expert, row half, column quarter). -/
theorem idx_facts : ∀ t : Fin cfg0.N,
    win0_0.index t (0 : Fin 3) = t.val / 32 ∧ win0_0.index t (1 : Fin 3) = t.val / 16 % 2 ∧ win0_0.index t (2 : Fin 3) = t.val % 4
    ∧ win0_1.index t (0 : Fin 3) = t.val / 32 ∧ win0_1.index t (1 : Fin 3) = t.val % 4 ∧ win0_1.index t (2 : Fin 3) = t.val / 4 % 4
    ∧ win0_2.index t (0 : Fin 3) = t.val / 32 ∧ win0_2.index t (1 : Fin 3) = t.val / 16 % 2 ∧ win0_2.index t (2 : Fin 3) = t.val / 4 % 4 :=
  (by decide +kernel : ∀ t : Fin grid0.N, _)

/-- The activations, at their literal shape. -/
abbrev xarr (c : Dev nD) : FVec Ideal S8x512x2048 .f32 := m ((c : Thread nD τ).loc main_arg0)
/-- The weights, at their literal shape. -/
abbrev warr (c : Dev nD) : FVec Ideal S8x2048x2048 .f32 := m ((c : Thread nD τ).loc main_arg1)

/-- The x tile at a point: entry (u, p, k) is x[t / 32, 256 (t / 16 % 2) + p, 512 (t % 4) + k]. -/
theorem xblk_apply (c : Dev nD) (t : Fin cfg0.N) (y : S1x256x512.Idx) (i : S8x512x2048.Idx)
    (h0 : (i 0).val = t.val / 32) (h1 : (i 1).val = t.val / 16 % 2 * 256 + (y 1).val)
    (h2 : (i 2).val = t.val % 4 * 512 + (y 2).val) :
    xblk m c t y = xarr m c i := by
  obtain ⟨e0, e1, e2, -⟩ := idx_facts t
  have hy : (y 0).val < 1 := (y 0).isLt
  show V m c main_arg0 (((cfg0.win 0).blk t).view.emb y) = V m c main_arg0 i
  congr 1
  funext a
  apply Fin.ext
  match a with
  | ⟨0, _⟩ => show win0_0.index t (0 : Fin 3) * 1 + 1 * (y 0).val = (i 0).val; omega
  | ⟨1, _⟩ => show win0_0.index t (1 : Fin 3) * 256 + 1 * (y 1).val = (i 1).val; omega
  | ⟨2, _⟩ => show win0_0.index t (2 : Fin 3) * 512 + 1 * (y 2).val = (i 2).val; omega

/-- The w tile at a point: entry (u, k, q) is w[t / 32, 512 (t % 4) + k, 512 (t / 4 % 4) + q]. -/
theorem wblk_apply (c : Dev nD) (t : Fin cfg0.N) (y : S1x512x512.Idx) (i : S8x2048x2048.Idx)
    (h0 : (i 0).val = t.val / 32) (h1 : (i 1).val = t.val % 4 * 512 + (y 1).val)
    (h2 : (i 2).val = t.val / 4 % 4 * 512 + (y 2).val) :
    wblk m c t y = warr m c i := by
  obtain ⟨-, -, -, e3, e4, e5, -⟩ := idx_facts t
  have hy : (y 0).val < 1 := (y 0).isLt
  show V m c main_arg1 (((cfg0.win 1).blk t).view.emb y) = V m c main_arg1 i
  congr 1
  funext a
  apply Fin.ext
  match a with
  | ⟨0, _⟩ => show win0_1.index t (0 : Fin 3) * 1 + 1 * (y 0).val = (i 0).val; omega
  | ⟨1, _⟩ => show win0_1.index t (1 : Fin 3) * 512 + 1 * (y 1).val = (i 1).val; omega
  | ⟨2, _⟩ => show win0_1.index t (2 : Fin 3) * 512 + 1 * (y 2).val = (i 2).val; omega

/-- The result array the reference ends with: the per-expert product of its two arguments. -/
abbrev result (c : Dev nD) : Buf (Elt Ideal) ((c : Thread nD τ).loc main_v0) :=
  Cert.ExpertMM.G (xarr m c) (warr m c)

/-- The tile product of step s of the run that ends at point t, at entry (p, q), is tile s of the hidden-axis sum
    of the product at the array index i where the run's result block places (p, q). -/
theorem tile_at (c : Dev nD) (t : Fin cfg0.N) (s : Fin 4) (p : Fin 256) (q : Fin 512) (i : S8x512x2048.Idx)
    (h0 : (i 0).val = t.val / 32) (h1 : (i 1).val = t.val / 16 % 2 * 256 + p.val)
    (h2 : (i 2).val = t.val / 4 % 4 * 512 + q.val) :
    tileProd m c (4 * (t.val / 4) + s.val) (ix2 p q)
      = ∑ k : Fin 512, xarr m c (ix3 (i 0) (i 1) ⟨s.val * 512 + k.val, Cert.ExpertMM.hid_lt s k⟩)
          * warr m c (ix3 (i 0) ⟨s.val * 512 + k.val, Cert.ExpertMM.hid_lt s k⟩ (i 2)) := by
  have hs : s.val < 4 := s.isLt
  have ht : t.val < cfg0.N := t.isLt
  have hN : cfg0.N = 256 := N_0
  have hb : 4 * (t.val / 4) + s.val < cfg0.N := by omega
  rw [tileProd_apply m c _ hb]
  refine Finset.sum_congr rfl fun k _ => ?_
  rw [xblk_apply m c ⟨4 * (t.val / 4) + s.val, hb⟩ (ix3 (0 : Fin 1) p k) (ix3 (i 0) (i 1) ⟨s.val * 512 + k.val, Cert.ExpertMM.hid_lt s k⟩)
      (by show (i 0).val = (4 * (t.val / 4) + s.val) / 32; omega)
      (by show (i 1).val = (4 * (t.val / 4) + s.val) / 16 % 2 * 256 + p.val; omega)
      (by show s.val * 512 + k.val = (4 * (t.val / 4) + s.val) % 4 * 512 + k.val; omega),
    wblk_apply m c ⟨4 * (t.val / 4) + s.val, hb⟩ (ix3 (0 : Fin 1) k q) (ix3 (i 0) ⟨s.val * 512 + k.val, Cert.ExpertMM.hid_lt s k⟩ (i 2))
      (by show (i 0).val = (4 * (t.val / 4) + s.val) / 32; omega)
      (by show s.val * 512 + k.val = (4 * (t.val / 4) + s.val) % 4 * 512 + k.val; omega)
      (by show (i 2).val = (4 * (t.val / 4) + s.val) / 4 % 4 * 512 + q.val; omega)]

/-- The block written back at a run's last point, at entry y, is the product at the array index i the block
    places y at. -/
theorem out_result (c : Dev nD) (t : Fin cfg0.N) (h3 : t.val % 4 = 3) (y : S1x256x512.Idx) (i : S8x512x2048.Idx)
    (h0 : (i 0).val = t.val / 32) (h1 : (i 1).val = t.val / 16 % 2 * 256 + (y 1).val)
    (h2 : (i 2).val = t.val / 4 % 4 * 512 + (y 2).val) :
    (outsAt0 m c t.val t.isLt).1 y = result m c i := by
  rw [out_last m c t h3, eq_ix3 y]
  refine (copy_apply _ (y 0) (y 1) (y 2)).trans ?_
  rw [acc_last m c t h3, zero_add, Finset.sum_range]
  unfold result
  rw [Cert.ExpertMM.G_tiles]
  exact Finset.sum_congr rfl fun s _ => tile_at m c t s (y 1) (y 2) i h0 h1 h2

/-! ## From the blocks to the array -/

/-- What a point that writes back writes is its block of the product. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  rw [Value.flushed2]
  obtain ⟨-, -, -, -, -, -, e6, e7, e8⟩ := idx_facts t
  funext j
  show (outsAt0 m c t.val t.isLt).1 j = result m c (((cfg0.win 2).blk t).view.emb j)
  have hj : (j 0).val < 1 := (j 0).isLt
  refine out_result m c t h3 j _ ?_ ?_ ?_
  · show win0_2.index t (0 : Fin 3) * 1 + 1 * (j 0).val = _; omega
  · show win0_2.index t (1 : Fin 3) * 256 + 1 * (j 1).val = _; omega
  · show win0_2.index t (2 : Fin 3) * 512 + 1 * (j 2).val = _; omega

/-- An index of the result is in a point's block iff each coordinate is in the block's range on its axis. -/
theorem mem_blk (t : Fin cfg0.N) (i : S8x512x2048.Idx) :
    i ∈ ((cfg0.win 2).blk t).view.set ↔ ∀ a : Fin 3, win0_2.index t a * S1x256x512.size a ≤ (i a).val ∧ (i a).val < win0_2.index t a * S1x256x512.size a + S1x256x512.size a := by
  show i ∈ ((View.whole main_v0).slice (win0_2.rect t)).set ↔ _
  rw [View.set_slice_whole, Rect.mem_set_unit]
  exact Iff.rfl

/-- The 64 written blocks cover the result: index (e, r, col) lies in the block written at the last point of the
    run of expert e, row half r / 256 and column quarter col / 512. -/
theorem cover (i : S8x512x2048.Idx) : ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 2048 := (i 2).isLt
  have hN : cfg0.N = 256 := N_0
  let t : Fin cfg0.N := ⟨(i 0).val * 32 + (i 1).val / 256 * 16 + (i 2).val / 512 * 4 + 3, by omega⟩
  have tv : t.val = (i 0).val * 32 + (i 1).val / 256 * 16 + (i 2).val / 512 * 4 + 3 := rfl
  obtain ⟨-, -, -, -, -, -, e6, e7, e8⟩ := idx_facts t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-- After the run the result array is the per-expert product. -/
theorem final (c : Dev nD) : (dats m 0 c).arrAt 2 cfg0.N = result m c :=
  (dats m 0 c).arrAt_eq_of_cover 2 (result m c) (flushed_eq m c) cover

/-- The reference's run: it terminates with the result array at the product and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.ReferenceIdeal.Product

end
-- ==== Proof.lean ====
/-
  The certificate of the per-expert matrix product  out[e, r, c] = ∑ h < 2048, x[e, r, h] · w[e, h, c]
  (8 experts, 512 tokens, 2048 hidden and 2048 output features).

  The kernel computes each [512, 1024] block of the result in one pass of the matrix unit over the whole
  hidden axis. The reference computes each [256, 512] block in four steps along the hidden axis, tile
  products of 512 hidden features added one after the other into an accumulator zeroed at the first step.
  On the extended reals both end at the same function of the arguments: the sum over the hidden axis, which
  the reference merely groups into four tiles (addition there is commutative and associative, so no
  finiteness is needed and the precondition is never opened).

  The three frames are the generated frame certificates; the idealization rewrote nothing, so it preserves
  the kernel trivially; the two value legs (Proof/KernelValue.lean, Proof/RefValue.lean) state each
  program's run with its result array at the product (Proof/Spec.lean) of its arguments.
-/
import proofs.«108898_g2000205832369335_pallasbulk_950_2_alg».proof.Defs
import proofs.«108898_g2000205832369335_pallasbulk_950_2_alg».proof.Proof.Gen.Kernel
import proofs.«108898_g2000205832369335_pallasbulk_950_2_alg».proof.Proof.Gen.Kernel.Skeleton
import proofs.«108898_g2000205832369335_pallasbulk_950_2_alg».proof.Proof.Gen.Kernel.Launch
import proofs.«108898_g2000205832369335_pallasbulk_950_2_alg».proof.Proof.Gen.Kernel.Points
import proofs.«108898_g2000205832369335_pallasbulk_950_2_alg».proof.Proof.Gen.Kernel.Frame
import proofs.«108898_g2000205832369335_pallasbulk_950_2_alg».proof.Proof.Gen.KernelIdeal
import proofs.«108898_g2000205832369335_pallasbulk_950_2_alg».proof.Proof.Gen.KernelIdeal.Skeleton
import proofs.«108898_g2000205832369335_pallasbulk_950_2_alg».proof.Proof.Gen.KernelIdeal.Launch
import proofs.«108898_g2000205832369335_pallasbulk_950_2_alg».proof.Proof.Gen.KernelIdeal.Points
import proofs.«108898_g2000205832369335_pallasbulk_950_2_alg».proof.Proof.Gen.KernelIdeal.Frame
import proofs.«108898_g2000205832369335_pallasbulk_950_2_alg».proof.Proof.Gen.ReferenceIdeal
import proofs.«108898_g2000205832369335_pallasbulk_950_2_alg».proof.Proof.Gen.ReferenceIdeal.Skeleton
import proofs.«108898_g2000205832369335_pallasbulk_950_2_alg».proof.Proof.Gen.ReferenceIdeal.Launch
import proofs.«108898_g2000205832369335_pallasbulk_950_2_alg».proof.Proof.Gen.ReferenceIdeal.Points
import proofs.«108898_g2000205832369335_pallasbulk_950_2_alg».proof.Proof.Gen.ReferenceIdeal.Frame
import proofs.«108898_g2000205832369335_pallasbulk_950_2_alg».proof.Proof.Gen.Pre_finite_inputs
import proofs.«108898_g2000205832369335_pallasbulk_950_2_alg».proof.Proof.Gen.KernelIdeal.Value
import proofs.«108898_g2000205832369335_pallasbulk_950_2_alg».proof.Proof.Gen.ReferenceIdeal.Value
import proofs.«108898_g2000205832369335_pallasbulk_950_2_alg».proof.Proof.KernelValue
import proofs.«108898_g2000205832369335_pallasbulk_950_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read on the extended reals, -/
theorem frame_ki : Cert.frame_KernelIdeal := fun m ρ _ => Cert.KernelIdeal.Gen.frame m ρ

/-- and so does the reference. -/
theorem frame_ri : Cert.frame_ReferenceIdeal := fun m ρ _ => Cert.ReferenceIdeal.Gen.frame m ρ

/-- From arguments that agree, both programs end with the per-expert product of those arguments. -/
theorem algebraic : Cert.algebraic_KernelIdeal_ReferenceIdeal := by
  intro m ρ m' ρ' _ hagree
  refine ⟨fun c => Cert.KernelIdeal.Product.result m c, Cert.KernelIdeal.Product.run m ρ, ?_⟩
  refine (θ_run Cert.ReferenceIdeal.defs _ _).mono (fun _ h c => ⟨(h c).1.trans ?_, (h c).2⟩)
    (Cert.ReferenceIdeal.Product.run m' ρ')
  exact congrArg₂ Cert.ExpertMM.G (hagree c).1 (hagree c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
